-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S50000x1 : Shape := ⟨2, ![50000, 1]⟩
abbrev S1x256 : Shape := ⟨2, ![1, 256]⟩
abbrev S2000x1 : Shape := ⟨2, ![2000, 1]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩

abbrev nBuf : Space → Nat
  | .hbm => 81
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S50000x256, .f32⟩
  | .hbm, ⟨42, _⟩ => ⟨S800000x1, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S800000x256, .f32⟩
  | .hbm, ⟨53, _⟩ => ⟨S800000x256, .f32⟩
  | .hbm, ⟨54, _⟩ => ⟨S_, .f32⟩
  | .hbm, ⟨55, _⟩ => ⟨S50000x256, .f32⟩
  | .hbm, ⟨56, _⟩ => ⟨S800000x1, .i32⟩
  | .hbm, ⟨57, _⟩ => ⟨S50000x256, .f32⟩
  | .hbm, ⟨58, _⟩ => ⟨S50000x1, .f32⟩
  | .hbm, ⟨59, _⟩ => ⟨S1x256, .f32⟩
  | .hbm, ⟨60, _⟩ => ⟨S50000x256, .f32⟩
  | .hbm, ⟨61, _⟩ => ⟨S50000x64, .f32⟩
  | .hbm, ⟨62, _⟩ => ⟨S800000x1, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x64, .f32⟩
  | .hbm, ⟨72, _⟩ => ⟨S800000x64, .f32⟩
  | .hbm, ⟨73, _⟩ => ⟨S800000x64, .f32⟩
  | .hbm, ⟨74, _⟩ => ⟨S_, .f32⟩
  | .hbm, ⟨75, _⟩ => ⟨S50000x64, .f32⟩
  | .hbm, ⟨76, _⟩ => ⟨S800000x1, .i32⟩
  | .hbm, ⟨77, _⟩ => ⟨S50000x64, .f32⟩
  | .hbm, ⟨78, _⟩ => ⟨S50000x1, .f32⟩
  | .hbm, ⟨79, _⟩ => ⟨S1x64, .f32⟩
  | .hbm, ⟨80, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S50000_S50000x1 : S50000.ShapeCasts S50000x1
  shapeCasts_S256_S1x256 : S256.ShapeCasts S1x256
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x64_S2000x64_1_0_0_1_n_n_wf : DotDims.WF S2000x256 S256x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .f32 = 32 ∨ (Rect.block (s := S256x64) S256x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S50000x256 : Shape := ⟨2, ![50000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x256, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S800000, .f32⟩
  | .hbm, ⟨42, _⟩ => ⟨S800000x1, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S800000x256, .f32⟩
  | .hbm, ⟨53, _⟩ => ⟨S800000x256, .f32⟩
  | .hbm, ⟨54, _⟩ => ⟨S_, .f32⟩
  | .hbm, ⟨55, _⟩ => ⟨S50000x256, .f32⟩
  | .hbm, ⟨56, _⟩ => ⟨S800000x1, .i32⟩
  | .hbm, ⟨57, _⟩ => ⟨S50000x256, .f32⟩
  | .hbm, ⟨58, _⟩ => ⟨S50000, .f32⟩
  | .hbm, ⟨59, _⟩ => ⟨S50000x1, .f32⟩
  | .hbm, ⟨60, _⟩ => ⟨S50000x256, .f32⟩
  | .hbm, ⟨61, _⟩ => ⟨S50000x256, .f32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x64, .f32⟩
  | .hbm, ⟨70, _⟩ => ⟨S_, .f32⟩
  | .hbm, ⟨71, _⟩ => ⟨S800000, .f32⟩
  | .hbm, ⟨72, _⟩ => ⟨S_, .f32⟩
  | .hbm, ⟨73, _⟩ => ⟨S50000, .f32⟩
  | .hbm, ⟨74, _⟩ => ⟨S800000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000, .f32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000, .f32⟩
  | .hbm, ⟨100, _⟩ => ⟨S800000, .f32⟩
  | .hbm, ⟨101, _⟩ => ⟨S800000x1, .f32⟩
  | .hbm, ⟨102, _⟩ => ⟨S_, .i32⟩
  | .hbm, ⟨103, _⟩ => ⟨S800000, .i32⟩
  | .hbm, ⟨104, _⟩ => ⟨S800000, .i1⟩
  | .hbm, ⟨105, _⟩ => ⟨S_, .i32⟩
  | .hbm, ⟨106, _⟩ => ⟨S800000, .i32⟩
  | .hbm, ⟨107, _⟩ => ⟨S800000, .i32⟩
  | .hbm, ⟨108, _⟩ => ⟨S800000, .i32⟩
  | .hbm, ⟨109, _⟩ => ⟨S800000x1, .i32⟩
  | .hbm, ⟨110, _⟩ => ⟨S800000x64, .f32⟩
  | .hbm, ⟨111, _⟩ => ⟨S800000x64, .f32⟩
  | .hbm, ⟨112, _⟩ => ⟨S800000x64, .f32⟩
  | .hbm, ⟨113, _⟩ => ⟨S_, .f32⟩
  | .hbm, ⟨114, _⟩ => ⟨S50000x64, .f32⟩
  | .hbm, ⟨115, _⟩ => ⟨S800000x1, .i32⟩
  | .hbm, ⟨116, _⟩ => ⟨S50000x64, .f32⟩
  | .hbm, ⟨117, _⟩ => ⟨S50000, .f32⟩
  | .hbm, ⟨118, _⟩ => ⟨S50000x1, .f32⟩
  | .hbm, ⟨119, _⟩ => ⟨S50000x64, .f32⟩
  | .hbm, ⟨120, _⟩ => ⟨S50000x64, .f32⟩
  | .hbm, ⟨121, _⟩ => ⟨S50000x64, .f32⟩
  | .hbm, ⟨122, _⟩ => ⟨S1x64, .f32⟩
  | .hbm, ⟨123, _⟩ => ⟨S50000x64, .f32⟩
  | .hbm, ⟨124, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_c_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_15 : Ref sig .tc := ⟨.hbm, 91, rfl⟩
abbrev main_v66 : Ref sig .tc := ⟨.hbm, 92, rfl⟩
abbrev main_v67 : Ref sig .tc := ⟨.hbm, 93, rfl⟩
abbrev main_c_16 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_17 : Ref sig .tc := ⟨.hbm, 102, rfl⟩
abbrev main_v75 : Ref sig .tc := ⟨.hbm, 103, rfl⟩
abbrev main_v76 : Ref sig .tc := ⟨.hbm, 104, rfl⟩
abbrev main_c_18 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_19 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x256_S50000x256_1_0_0_1_n_n_wf : DotDims.WF S50000x128 S128x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Mm1.lean ====
/- Region 0 of the kernel's program: x · W₁, 2000 rows at a time.
   Grid point t multiplies rows 2000·t … 2000·t+1999 of x (all 128 columns) by the whole of W₁ into a zero accumulator
   and writes the 2000 × 256 product back as block t of the result. At the ideal instance the narrowing of both
   operands before the product is the identity and the product into zero is the plain sum over the 128 contracted
   positions, so block t is rows 2000·t … of the matrix product of the whole arrays; the 25 blocks tile the
   50000 rows, so the array the region leaves IS that product. Everything is stated at the contents `V` the
   region is entered with, whatever they are. -/
import proofs.«166858_j5566277616086_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Mm1

open Cert.KernelIdeal Cert.KernelIdeal.Gen
open Idealize.ShloMosaic Idealize.ShloMosaic.TcCoe Idealize.SL.Sem
open Idealize.ShloMosaic.Pipeline (Dat Cfg Window)
open scoped BigOperators

/-! ## The block product at an index -/

theorem lhs_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Row `j 0`, column `k` of the block of x. -/
abbrev lb (j : S2000x256.Idx) (k : Fin 128) : S2000x128.Idx := fun a => match a with
  | ⟨0, _⟩ => ⟨(j 0).val, (j 0).isLt⟩
  | ⟨1, _⟩ => ⟨k.val, k.isLt⟩
/-- Row `k`, column `j 1` of W₁. -/
abbrev rb (j : S2000x256.Idx) (k : Fin 128) : S128x256.Idx := fun a => match a with
  | ⟨0, _⟩ => ⟨k.val, k.isLt⟩
  | ⟨1, _⟩ => ⟨(j 1).val, (j 1).isLt⟩

/-- The body's product at an entry: the sum over the contracted position of a row of the x block times a column of W₁. -/
theorem pay_apply (x0 : Vec Ideal S2000x128 .f32) (x1 : Vec Ideal S128x256 .f32) (j : S2000x256.Idx) :
    k0_pay1 (F := Ideal) x0 x1 j = ∑ k : Fin 128, x0 (lb j k) * x1 (rb j k) := by
  unfold k0_pay1
  refine (Ideal.matmul_constant_zero_apply dot_S2000x128_S128x256_S2000x256_1_0_0_1_n_n none _ _ j).trans ?_
  rw [← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx j ((ValueIdx.contrEquiv1 dot_S2000x128_S128x256_S2000x256_1_0_0_1_n_n 128 rfl rfl).symm k) = lb j k := funext fun a => Fin.ext (by
    match a with
    | ⟨0, _⟩ => exact lhs_0 _ _
    | ⟨1, _⟩ => exact (lhs_1 _ _).trans hk)
  have er : dot_S2000x128_S128x256_S2000x256_1_0_0_1_n_n.rhsIdx j ((ValueIdx.contrEquiv1 dot_S2000x128_S128x256_S2000x256_1_0_0_1_n_n 128 rfl rfl).symm k) = rb j k := funext fun a => Fin.ext (by
    match a with
    | ⟨0, _⟩ => exact (rhs_0 _ _).trans hk
    | ⟨1, _⟩ => exact rhs_1 _ _)
  rw [el, er]
  rfl

/-! ## The product of the whole arrays -/

/-- Row `i 0`, column `k` of x. -/
abbrev la (i : S50000x256.Idx) (k : Fin 128) : S50000x128.Idx := fun a => match a with
  | ⟨0, _⟩ => ⟨(i 0).val, (i 0).isLt⟩
  | ⟨1, _⟩ => ⟨k.val, k.isLt⟩
/-- Row `k`, column `i 1` of W₁. -/
abbrev ra (i : S50000x256.Idx) (k : Fin 128) : S128x256.Idx := fun a => match a with
  | ⟨0, _⟩ => ⟨k.val, k.isLt⟩
  | ⟨1, _⟩ => ⟨(i 1).val, (i 1).isLt⟩

/-- x · W₁ at every index: the sum over the contracted position of a row of x times a column of W₁. -/
def G (x : Vec Ideal S50000x128 .f32) (w : Vec Ideal S128x256 .f32) : Vec Ideal S50000x256 .f32 :=
  fun i => ∑ k : Fin 128, x (la i k) * w (ra i k)

/-! ## From the blocks to the array -/

theorem hz : (![0, 0] : Fin 2 → Nat) = fun _ => 0 := funext fun a => by fin_cases a <;> rfl

/-- Where each window's block sits at grid point t: x's and the result's at block row t, W₁ whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What grid point t writes back is block t of the product of the arrays the region is entered with. -/
theorem flushed_eq (c : Dev nD) (t : Fin cfg0.N) :
    (dat0 (F := Ideal) V c).flushed 2 t = ((cfg0.win 2).blk t).view.read (Elt Ideal)
      (G (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x256) hz]
  obtain ⟨e0, e1, e2, e3, e4, e5⟩ := idx_facts t
  funext j
  show k0_pay1 (F := Ideal) (iblk0 V c 0 t) (iblk0 V c 1 t) j
    = G (V c main_arg0) (V c main_arg2) (((cfg0.win 2).blk t).view.emb j)
  refine (pay_apply (iblk0 V c 0 t) (iblk0 V c 1 t) j).trans ?_
  refine Finset.sum_congr rfl fun k _ => ?_
  have h0 : ((cfg0.win 0).blk t).view.emb (lb j k) = la (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have h1 : ((cfg0.win 1).blk t).view.emb (rb j k) = ra (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 256 + 1 * (j 1).val = win0_2.index t (1 : Fin 2) * 256 + 1 * (j 1).val; omega
  exact congrArg₂ (fun a b : EReal => a * b) (congrArg (V c main_arg0) h0) (congrArg (V c main_arg2) h1)

/-- An index of the result is in point t's block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v27).slice (win0_2.rect t)).set ↔ _
  rw [View.set_slice_whole, Rect.mem_set_unit]
  exact Iff.rfl

/-- Row r of the result lies in the block of point r / 2000. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, Nat.lt_of_lt_of_eq (by omega : (i 0).val / 2000 < 25) N_0.symm⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The array region 0 leaves: the product of the two arrays it was entered with. -/
theorem final (c : Dev nD) :
    (dat0 (F := Ideal) V c).arrAt 2 cfg0.N = G (V c main_arg0) (V c main_arg2) :=
  (dat0 V c).arrAt_eq_of_cover 2 _ (fun t _ => flushed_eq V c t) cover

end Cert.KernelIdeal.Mm1

end
-- ==== Proof.Comb1.lean ====
/- Region 1 of the kernel's program: the layer's combine step, 2000 rows at a time.
   Grid point t takes rows 2000·t … of the transformed features h and of the neighbour sum agg, the same rows of the
   column d of inverse square-root degrees, and the whole bias row b, and writes back
   max((agg + (d·d)·h) + b, 0) — d broadcast along the row, b down the column — as block t of the result. Every
   operation is pointwise, so block t is the same expression of the whole arrays read at the block's rows; the 25
   blocks tile the 50000 rows. Stated at the contents `V` the region is entered with, whatever they are. -/
import proofs.«166858_j5566277616086_1_alg».proof.Proof.Gen.KernelIdeal.Frame
import Idealize.ShloMosaic.Lib.Pipeline.Value
import Idealize.ShloMosaic.Lib.ValueIdx

set_option maxRecDepth 16384

noncomputable section

namespace Cert.KernelIdeal.Comb1

open Cert.KernelIdeal Cert.KernelIdeal.Gen
open Idealize.ShloMosaic Idealize.ShloMosaic.TcCoe Idealize.SL.Sem
open Idealize.ShloMosaic.Pipeline (Dat Cfg Window)

/-! ## The combine step of whole arrays, index by index -/

/-- Row `i 0` of the degree column. -/
abbrev ci (i : S50000x256.Idx) : S50000x1.Idx := fun a => match a with
  | ⟨0, _⟩ => ⟨(i 0).val, (i 0).isLt⟩
  | ⟨1, _⟩ => ⟨0, Nat.one_pos⟩
/-- Column `i 1` of the bias row. -/
abbrev ri (i : S50000x256.Idx) : S1x256.Idx := fun a => match a with
  | ⟨0, _⟩ => ⟨0, Nat.one_pos⟩
  | ⟨1, _⟩ => ⟨(i 1).val, (i 1).isLt⟩

/-- max((agg + (d·d)·h) + b, 0) at every index: the self-loop term d_i² h_i added to the neighbour sum, then the bias, then the relu. -/
def G (h agg : Vec Ideal S50000x256 .f32) (d : Vec Ideal S50000x1 .f32) (b : Vec Ideal S1x256 .f32) : Vec Ideal S50000x256 .f32 :=
  fun i => max ((agg i + (d (ci i) * d (ci i)) * h i) + b (ri i)) (Ideal.ofBits .f32 0x00000000#32)

/-! ## The body's value at an entry of the block -/

abbrev cb (j : S2000x256.Idx) : S2000x1.Idx := fun a => match a with
  | ⟨0, _⟩ => ⟨(j 0).val, (j 0).isLt⟩
  | ⟨1, _⟩ => ⟨0, Nat.one_pos⟩
abbrev rwb (j : S2000x256.Idx) : S1x256.Idx := fun a => match a with
  | ⟨0, _⟩ => ⟨0, Nat.one_pos⟩
  | ⟨1, _⟩ => ⟨(j 1).val, (j 1).isLt⟩

/-- A column broadcast along the rows reads the column at the entry's row. -/
theorem bc_col (v : S2000x1.Idx → EReal) (j : S2000x256.Idx) :
    broadcastTo S2000x256 v broadcasts_S2000x1_S2000x256 j = v (cb j) :=
  broadcastTo_apply v _ j (cb j) (fun a => match a with
    | ⟨0, _⟩ => by show (j 0).val = if (2000 : Nat) = 1 then 0 else (j 0).val; rw [if_neg (by decide)]
    | ⟨1, _⟩ => by show 0 = if (1 : Nat) = 1 then 0 else (j 1).val; rw [if_pos rfl])
/-- A row broadcast down the columns reads the row at the entry's column. -/
theorem bc_row (v : S1x256.Idx → EReal) (j : S2000x256.Idx) :
    broadcastTo S2000x256 v broadcasts_S1x256_S2000x256 j = v (rwb j) :=
  broadcastTo_apply v _ j (rwb j) (fun a => match a with
    | ⟨0, _⟩ => by show 0 = if (1 : Nat) = 1 then 0 else (j 0).val; rw [if_pos rfl]
    | ⟨1, _⟩ => by show (j 1).val = if (256 : Nat) = 1 then 0 else (j 1).val; rw [if_neg (by decide)])

/-- The body's stored value at an entry, from its four loaded blocks (agg, d, h, b in the order the body loads them). -/
theorem pay_apply (x0 : Vec Ideal S2000x256 .f32) (x2 : Vec Ideal S2000x1 .f32) (x5 : Vec Ideal S2000x256 .f32) (x10 : Vec Ideal S1x256 .f32) (j : S2000x256.Idx) :
    k1_pay1 (F := Ideal) x0 x2 x5 x10 j = max ((x0 j + (x2 (cb j) * x2 (cb j)) * x5 j) + x10 (rwb j)) (Ideal.ofBits .f32 0x00000000#32) := by
  unfold k1_pay1
  simp only [shapeCast_self]
  show max ((x0 j + broadcastTo S2000x256 (mulf (F := Ideal) (φ := .f32) x2 x2) broadcasts_S2000x1_S2000x256 j * x5 j) + broadcastTo S2000x256 x10 broadcasts_S1x256_S2000x256 j) (Ideal.ofBits .f32 0x00000000#32) = _
  rw [bc_col, bc_row]
  rfl

/-! ## From the blocks to the array -/

theorem hz : (![0, 0] : Fin 2 → Nat) = fun _ => 0 := funext fun a => by fin_cases a <;> rfl

/-- Where each window's block sits at grid point t: h's, agg's, d's and the result's at block row t, the bias whole. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- What grid point t writes back is block t of the combine step of the arrays the region is entered with. -/
theorem flushed_eq (c : Dev nD) (t : Fin cfg1.N) :
    (dat1 (F := Ideal) V c).flushed 4 t = ((cfg1.win 4).blk t).view.read (Elt Ideal)
      (G (V c main_v27) (V c main_v40) (V c main_v41) (V c main_v42)) := by
  show (cfg1.win 4).cut (grid1.coords t) ((dat1 V c).after 4 t) = _
  rw [after1_4]
  unfold out1_4
  rw [View.canon_unit_zero hz]
  simp only [View.ld_unit_zero (S := S2000x256) hz, View.ld_unit_zero (S := S2000x1) hz, View.ld_unit_zero (S := S1x256) hz]
  obtain ⟨e0, e1, e2, e3, e4, e5, e6, e7, e8, e9⟩ := idx_facts t
  funext j
  show k1_pay1 (F := Ideal) (iblk1 V c 1 t) (iblk1 V c 2 t) (iblk1 V c 0 t) (iblk1 V c 3 t) j
    = G (V c main_v27) (V c main_v40) (V c main_v41) (V c main_v42) (((cfg1.win 4).blk t).view.emb j)
  refine (pay_apply (iblk1 V c 1 t) (iblk1 V c 2 t) (iblk1 V c 0 t) (iblk1 V c 3 t) j).trans ?_
  have h0 : ((cfg1.win 0).blk t).view.emb j = ((cfg1.win 4).blk t).view.emb j := by
    funext a; apply Fin.ext
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 256 + 1 * (j 1).val = win1_4.index t (1 : Fin 2) * 256 + 1 * (j 1).val; omega
  have h1 : ((cfg1.win 1).blk t).view.emb j = ((cfg1.win 4).blk t).view.emb j := by
    funext a; apply Fin.ext
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 256 + 1 * (j 1).val = win1_4.index t (1 : Fin 2) * 256 + 1 * (j 1).val; omega
  have h2 : ((cfg1.win 2).blk t).view.emb (cb j) = ci (((cfg1.win 4).blk t).view.emb j) := by
    funext a; apply Fin.ext
    match a with
    | ⟨0, _⟩ => show win1_2.index t (0 : Fin 2) * 2000 + 1 * (j 0).val = win1_4.index t (0 : Fin 2) * 2000 + 1 * (j 0).val; omega
    | ⟨1, _⟩ => show win1_2.index t (1 : Fin 2) * 1 + 1 * 0 = 0; omega
  have h3 : ((cfg1.win 3).blk t).view.emb (rwb j) = ri (((cfg1.win 4).blk t).view.emb j) := by
    funext a; apply Fin.ext
    match a with
    | ⟨0, _⟩ => show win1_3.index t (0 : Fin 2) * 1 + 1 * 0 = 0; omega
    | ⟨1, _⟩ => show win1_3.index t (1 : Fin 2) * 256 + 1 * (j 1).val = win1_4.index t (1 : Fin 2) * 256 + 1 * (j 1).val; omega
  have q0 : iblk1 V c 0 t j = V c main_v27 (((cfg1.win 4).blk t).view.emb j) := congrArg (V c main_v27) h0
  have q1 : iblk1 V c 1 t j = V c main_v40 (((cfg1.win 4).blk t).view.emb j) := congrArg (V c main_v40) h1
  have q2 : iblk1 V c 2 t (cb j) = V c main_v41 (ci (((cfg1.win 4).blk t).view.emb j)) := congrArg (V c main_v41) h2
  have q3 : iblk1 V c 3 t (rwb j) = V c main_v42 (ri (((cfg1.win 4).blk t).view.emb j)) := congrArg (V c main_v42) h3
  rw [q0, q1, q2, q3]
  rfl

/-- An index of the result is in point t's block iff each coordinate is in the block's range on its axis. -/
theorem mem_blk (t : Fin cfg1.N) (i : S50000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v43).slice (win1_4.rect t)).set ↔ _
  rw [View.set_slice_whole, Rect.mem_set_unit]
  exact Iff.rfl

/-- Row r of the result lies in the block of point r / 2000. -/
theorem cover (i : S50000x256.Idx) : ∃ t : Fin cfg1.N, (cfg1.win 4).flush t = true ∧ i ∈ ((cfg1.win 4).blk t).view.set := by
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, Nat.lt_of_lt_of_eq (by omega : (i 0).val / 2000 < 25) N_1.symm⟩, rfl⟩
  obtain ⟨e0, e1, e2, e3, e4, e5, e6, e7, e8, e9⟩ := idx_facts t
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 256 ≤ (i 1).val ∧ (i 1).val < win1_4.index t (1 : Fin 2) * 256 + 256; omega

/-- The array region 1 leaves: the combine step of the four arrays it was entered with. -/
theorem final (c : Dev nD) :
    (dat1 (F := Ideal) V c).arrAt 4 cfg1.N = G (V c main_v27) (V c main_v40) (V c main_v41) (V c main_v42) :=
  (dat1 V c).arrAt_eq_of_cover 4 _ (fun t _ => flushed_eq V c t) cover

end Cert.KernelIdeal.Comb1

end
-- ==== Proof.Mm2.lean ====
/- Region 2 of the kernel's program: x₂ · W₂, 2000 rows at a time.
   Grid point t multiplies rows 2000·t … 2000·t+1999 of x (all 256 columns) by the whole of W₂ into a zero accumulator
   and writes the 2000 × 64 product back as block t of the result. At the ideal instance the narrowing of both
   operands before the product is the identity and the product into zero is the plain sum over the 256 contracted
   positions, so block t is rows 2000·t … of the matrix product of the whole arrays; the 25 blocks tile the
   50000 rows, so the array the region leaves IS that product. Everything is stated at the contents `V` the
   region is entered with, whatever they are. -/
import proofs.«166858_j5566277616086_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Mm2

open Cert.KernelIdeal Cert.KernelIdeal.Gen
open Idealize.ShloMosaic Idealize.ShloMosaic.TcCoe Idealize.SL.Sem
open Idealize.ShloMosaic.Pipeline (Dat Cfg Window)
open scoped BigOperators

/-! ## The block product at an index -/

theorem lhs_0 (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem lhs_1 (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
theorem rhs_0 (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
theorem rhs_1 (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- Row `j 0`, column `k` of the block of x. -/
abbrev lb (j : S2000x64.Idx) (k : Fin 256) : S2000x256.Idx := fun a => match a with
  | ⟨0, _⟩ => ⟨(j 0).val, (j 0).isLt⟩
  | ⟨1, _⟩ => ⟨k.val, k.isLt⟩
/-- Row `k`, column `j 1` of W₂. -/
abbrev rb (j : S2000x64.Idx) (k : Fin 256) : S256x64.Idx := fun a => match a with
  | ⟨0, _⟩ => ⟨k.val, k.isLt⟩
  | ⟨1, _⟩ => ⟨(j 1).val, (j 1).isLt⟩

/-- The body's product at an entry: the sum over the contracted position of a row of the x block times a column of W₂. -/
theorem pay_apply (x0 : Vec Ideal S2000x256 .f32) (x1 : Vec Ideal S256x64 .f32) (j : S2000x64.Idx) :
    k2_pay1 (F := Ideal) x0 x1 j = ∑ k : Fin 256, x0 (lb j k) * x1 (rb j k) := by
  unfold k2_pay1
  refine (Ideal.matmul_constant_zero_apply dot_S2000x256_S256x64_S2000x64_1_0_0_1_n_n none _ _ j).trans ?_
  rw [← Equiv.sum_comp (ValueIdx.contrEquiv1 dot_S2000x256_S256x64_S2000x64_1_0_0_1_n_n 256 rfl rfl).symm]
  refine Finset.sum_congr rfl fun k _ => ?_
  have hk := ValueIdx.contrEquiv1_symm_val dot_S2000x256_S256x64_S2000x64_1_0_0_1_n_n 256 rfl rfl k
  have el : dot_S2000x256_S256x64_S2000x64_1_0_0_1_n_n.lhsIdx j ((ValueIdx.contrEquiv1 dot_S2000x256_S256x64_S2000x64_1_0_0_1_n_n 256 rfl rfl).symm k) = lb j k := funext fun a => Fin.ext (by
    match a with
    | ⟨0, _⟩ => exact lhs_0 _ _
    | ⟨1, _⟩ => exact (lhs_1 _ _).trans hk)
  have er : dot_S2000x256_S256x64_S2000x64_1_0_0_1_n_n.rhsIdx j ((ValueIdx.contrEquiv1 dot_S2000x256_S256x64_S2000x64_1_0_0_1_n_n 256 rfl rfl).symm k) = rb j k := funext fun a => Fin.ext (by
    match a with
    | ⟨0, _⟩ => exact (rhs_0 _ _).trans hk
    | ⟨1, _⟩ => exact rhs_1 _ _)
  rw [el, er, shapeCast_self]
  rfl

/-! ## The product of the whole arrays -/

/-- Row `i 0`, column `k` of x. -/
abbrev la (i : S50000x64.Idx) (k : Fin 256) : S50000x256.Idx := fun a => match a with
  | ⟨0, _⟩ => ⟨(i 0).val, (i 0).isLt⟩
  | ⟨1, _⟩ => ⟨k.val, k.isLt⟩
/-- Row `k`, column `i 1` of W₂. -/
abbrev ra (i : S50000x64.Idx) (k : Fin 256) : S256x64.Idx := fun a => match a with
  | ⟨0, _⟩ => ⟨k.val, k.isLt⟩
  | ⟨1, _⟩ => ⟨(i 1).val, (i 1).isLt⟩

/-- x₂ · W₂ at every index: the sum over the contracted position of a row of x times a column of W₂. -/
def G (x : Vec Ideal S50000x256 .f32) (w : Vec Ideal S256x64 .f32) : Vec Ideal S50000x64 .f32 :=
  fun i => ∑ k : Fin 256, x (la i k) * w (ra i k)

/-! ## From the blocks to the array -/

theorem hz : (![0, 0] : Fin 2 → Nat) = fun _ => 0 := funext fun a => by fin_cases a <;> rfl

/-- Where each window's block sits at grid point t: x's and the result's at block row t, W₂ whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What grid point t writes back is block t of the product of the arrays the region is entered with. -/
theorem flushed_eq (c : Dev nD) (t : Fin cfg2.N) :
    (dat2 (F := Ideal) V c).flushed 2 t = ((cfg2.win 2).blk t).view.read (Elt Ideal)
      (G (V c main_v43) (V c main_arg4)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x64) hz]
  obtain ⟨e0, e1, e2, e3, e4, e5⟩ := idx_facts t
  funext j
  show k2_pay1 (F := Ideal) (iblk2 V c 0 t) (iblk2 V c 1 t) j
    = G (V c main_v43) (V c main_arg4) (((cfg2.win 2).blk t).view.emb j)
  refine (pay_apply (iblk2 V c 0 t) (iblk2 V c 1 t) j).trans ?_
  refine Finset.sum_congr rfl fun k _ => ?_
  have h0 : ((cfg2.win 0).blk t).view.emb (lb j k) = la (((cfg2.win 2).blk t).view.emb j) k := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 256 + 1 * k.val = k.val; omega
  have h1 : ((cfg2.win 1).blk t).view.emb (rb j k) = ra (((cfg2.win 2).blk t).view.emb j) k := by
    funext a; apply Fin.ext
    match a with
    | ⟨0, _⟩ => show win2_1.index t (0 : Fin 2) * 256 + 1 * k.val = k.val; omega
    | ⟨1, _⟩ => show win2_1.index t (1 : Fin 2) * 64 + 1 * (j 1).val = win2_2.index t (1 : Fin 2) * 64 + 1 * (j 1).val; omega
  exact congrArg₂ (fun a b : EReal => a * b) (congrArg (V c main_v43) h0) (congrArg (V c main_arg4) h1)

/-- An index of the result is in point t's block iff each coordinate is in the block's range on its axis. -/
theorem mem_blk (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v44).slice (win2_2.rect t)).set ↔ _
  rw [View.set_slice_whole, Rect.mem_set_unit]
  exact Iff.rfl

/-- Row r of the result lies in the block of point r / 2000. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ : ∃ t : Fin cfg2.N, t.val = (i 0).val / 2000 :=
    ⟨⟨(i 0).val / 2000, Nat.lt_of_lt_of_eq (by omega : (i 0).val / 2000 < 25) N_2.symm⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- The array region 2 leaves: the product of the two arrays it was entered with. -/
theorem final (c : Dev nD) :
    (dat2 (F := Ideal) V c).arrAt 2 cfg2.N = G (V c main_v43) (V c main_arg4) :=
  (dat2 V c).arrAt_eq_of_cover 2 _ (fun t _ => flushed_eq V c t) cover

end Cert.KernelIdeal.Mm2

end
-- ==== Proof.Comb2.lean ====
/- Region 3 of the kernel's program: the layer's combine step, 2000 rows at a time.
   Grid point t takes rows 2000·t … of the transformed features h and of the neighbour sum agg, the same rows of the
   column d of inverse square-root degrees, and the whole bias row b, and writes back
   (agg + (d·d)·h) + b — d broadcast along the row, b down the column — as block t of the result. Every
   operation is pointwise, so block t is the same expression of the whole arrays read at the block's rows; the 25
   blocks tile the 50000 rows. Stated at the contents `V` the region is entered with, whatever they are. -/
import proofs.«166858_j5566277616086_1_alg».proof.Proof.Gen.KernelIdeal.Frame
import Idealize.ShloMosaic.Lib.Pipeline.Value
import Idealize.ShloMosaic.Lib.ValueIdx

set_option maxRecDepth 16384

noncomputable section

namespace Cert.KernelIdeal.Comb2

open Cert.KernelIdeal Cert.KernelIdeal.Gen
open Idealize.ShloMosaic Idealize.ShloMosaic.TcCoe Idealize.SL.Sem
open Idealize.ShloMosaic.Pipeline (Dat Cfg Window)

/-! ## The combine step of whole arrays, index by index -/

/-- Row `i 0` of the degree column. -/
abbrev ci (i : S50000x64.Idx) : S50000x1.Idx := fun a => match a with
  | ⟨0, _⟩ => ⟨(i 0).val, (i 0).isLt⟩
  | ⟨1, _⟩ => ⟨0, Nat.one_pos⟩
/-- Column `i 1` of the bias row. -/
abbrev ri (i : S50000x64.Idx) : S1x64.Idx := fun a => match a with
  | ⟨0, _⟩ => ⟨0, Nat.one_pos⟩
  | ⟨1, _⟩ => ⟨(i 1).val, (i 1).isLt⟩

/-- (agg + (d·d)·h) + b at every index: the self-loop term d_i² h_i added to the neighbour sum, then the bias. -/
def G (h agg : Vec Ideal S50000x64 .f32) (d : Vec Ideal S50000x1 .f32) (b : Vec Ideal S1x64 .f32) : Vec Ideal S50000x64 .f32 :=
  fun i => (agg i + (d (ci i) * d (ci i)) * h i) + b (ri i)

/-! ## The body's value at an entry of the block -/

abbrev cb (j : S2000x64.Idx) : S2000x1.Idx := fun a => match a with
  | ⟨0, _⟩ => ⟨(j 0).val, (j 0).isLt⟩
  | ⟨1, _⟩ => ⟨0, Nat.one_pos⟩
abbrev rwb (j : S2000x64.Idx) : S1x64.Idx := fun a => match a with
  | ⟨0, _⟩ => ⟨0, Nat.one_pos⟩
  | ⟨1, _⟩ => ⟨(j 1).val, (j 1).isLt⟩

/-- A column broadcast along the rows reads the column at the entry's row. -/
theorem bc_col (v : S2000x1.Idx → EReal) (j : S2000x64.Idx) :
    broadcastTo S2000x64 v broadcasts_S2000x1_S2000x64 j = v (cb j) :=
  broadcastTo_apply v _ j (cb j) (fun a => match a with
    | ⟨0, _⟩ => by show (j 0).val = if (2000 : Nat) = 1 then 0 else (j 0).val; rw [if_neg (by decide)]
    | ⟨1, _⟩ => by show 0 = if (1 : Nat) = 1 then 0 else (j 1).val; rw [if_pos rfl])
/-- A row broadcast down the columns reads the row at the entry's column. -/
theorem bc_row (v : S1x64.Idx → EReal) (j : S2000x64.Idx) :
    broadcastTo S2000x64 v broadcasts_S1x64_S2000x64 j = v (rwb j) :=
  broadcastTo_apply v _ j (rwb j) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)])

/-- The body's stored value at an entry, from its four loaded blocks (agg, d, h, b in the order the body loads them). -/
theorem pay_apply (x0 : Vec Ideal S2000x64 .f32) (x2 : Vec Ideal S2000x1 .f32) (x5 : Vec Ideal S2000x64 .f32) (x10 : Vec Ideal S1x64 .f32) (j : S2000x64.Idx) :
    k3_pay1 (F := Ideal) x0 x2 x5 x10 j = (x0 j + (x2 (cb j) * x2 (cb j)) * x5 j) + x10 (rwb j) := by
  unfold k3_pay1
  simp only [shapeCast_self]
  show (x0 j + broadcastTo S2000x64 (mulf (F := Ideal) (φ := .f32) x2 x2) broadcasts_S2000x1_S2000x64 j * x5 j) + broadcastTo S2000x64 x10 broadcasts_S1x64_S2000x64 j = _
  rw [bc_col, bc_row]
  rfl

/-! ## From the blocks to the array -/

theorem hz : (![0, 0] : Fin 2 → Nat) = fun _ => 0 := funext fun a => by fin_cases a <;> rfl

/-- Where each window's block sits at grid point t: h's, agg's, d's and the result's at block row t, the bias whole. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

/-- What grid point t writes back is block t of the combine step of the arrays the region is entered with. -/
theorem flushed_eq (c : Dev nD) (t : Fin cfg3.N) :
    (dat3 (F := Ideal) V c).flushed 4 t = ((cfg3.win 4).blk t).view.read (Elt Ideal)
      (G (V c main_v44) (V c main_v57) (V c main_v58) (V c main_v59)) := by
  show (cfg3.win 4).cut (grid3.coords t) ((dat3 V c).after 4 t) = _
  rw [after3_4]
  unfold out3_4
  rw [View.canon_unit_zero hz]
  simp only [View.ld_unit_zero (S := S2000x64) hz, View.ld_unit_zero (S := S2000x1) hz, View.ld_unit_zero (S := S1x64) hz]
  obtain ⟨e0, e1, e2, e3, e4, e5, e6, e7, e8, e9⟩ := idx_facts t
  funext j
  show k3_pay1 (F := Ideal) (iblk3 V c 1 t) (iblk3 V c 2 t) (iblk3 V c 0 t) (iblk3 V c 3 t) j
    = G (V c main_v44) (V c main_v57) (V c main_v58) (V c main_v59) (((cfg3.win 4).blk t).view.emb j)
  refine (pay_apply (iblk3 V c 1 t) (iblk3 V c 2 t) (iblk3 V c 0 t) (iblk3 V c 3 t) j).trans ?_
  have h0 : ((cfg3.win 0).blk t).view.emb j = ((cfg3.win 4).blk t).view.emb j := by
    funext a; apply Fin.ext
    match a with
    | ⟨0, _⟩ => show win3_0.index t (0 : Fin 2) * 2000 + 1 * (j 0).val = win3_4.index t (0 : Fin 2) * 2000 + 1 * (j 0).val; omega
    | ⟨1, _⟩ => show win3_0.index t (1 : Fin 2) * 64 + 1 * (j 1).val = win3_4.index t (1 : Fin 2) * 64 + 1 * (j 1).val; omega
  have h1 : ((cfg3.win 1).blk t).view.emb j = ((cfg3.win 4).blk t).view.emb j := by
    funext a; apply Fin.ext
    match a with
    | ⟨0, _⟩ => show win3_1.index t (0 : Fin 2) * 2000 + 1 * (j 0).val = win3_4.index t (0 : Fin 2) * 2000 + 1 * (j 0).val; omega
    | ⟨1, _⟩ => show win3_1.index t (1 : Fin 2) * 64 + 1 * (j 1).val = win3_4.index t (1 : Fin 2) * 64 + 1 * (j 1).val; omega
  have h2 : ((cfg3.win 2).blk t).view.emb (cb j) = ci (((cfg3.win 4).blk t).view.emb j) := by
    funext a; apply Fin.ext
    match a with
    | ⟨0, _⟩ => show win3_2.index t (0 : Fin 2) * 2000 + 1 * (j 0).val = win3_4.index t (0 : Fin 2) * 2000 + 1 * (j 0).val; omega
    | ⟨1, _⟩ => show win3_2.index t (1 : Fin 2) * 1 + 1 * 0 = 0; omega
  have h3 : ((cfg3.win 3).blk t).view.emb (rwb j) = ri (((cfg3.win 4).blk t).view.emb j) := by
    funext a; apply Fin.ext
    match a with
    | ⟨0, _⟩ => show win3_3.index t (0 : Fin 2) * 1 + 1 * 0 = 0; omega
    | ⟨1, _⟩ => show win3_3.index t (1 : Fin 2) * 64 + 1 * (j 1).val = win3_4.index t (1 : Fin 2) * 64 + 1 * (j 1).val; omega
  have q0 : iblk3 V c 0 t j = V c main_v44 (((cfg3.win 4).blk t).view.emb j) := congrArg (V c main_v44) h0
  have q1 : iblk3 V c 1 t j = V c main_v57 (((cfg3.win 4).blk t).view.emb j) := congrArg (V c main_v57) h1
  have q2 : iblk3 V c 2 t (cb j) = V c main_v58 (ci (((cfg3.win 4).blk t).view.emb j)) := congrArg (V c main_v58) h2
  have q3 : iblk3 V c 3 t (rwb j) = V c main_v59 (ri (((cfg3.win 4).blk t).view.emb j)) := congrArg (V c main_v59) h3
  rw [q0, q1, q2, q3]
  rfl

/-- An index of the result is in point t's block iff each coordinate is in the block's range on its axis. -/
theorem mem_blk (t : Fin cfg3.N) (i : S50000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v60).slice (win3_4.rect t)).set ↔ _
  rw [View.set_slice_whole, Rect.mem_set_unit]
  exact Iff.rfl

/-- Row r of the result lies in the block of point r / 2000. -/
theorem cover (i : S50000x64.Idx) : ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ : ∃ t : Fin cfg3.N, t.val = (i 0).val / 2000 :=
    ⟨⟨(i 0).val / 2000, Nat.lt_of_lt_of_eq (by omega : (i 0).val / 2000 < 25) N_3.symm⟩, rfl⟩
  obtain ⟨e0, e1, e2, e3, e4, e5, e6, e7, e8, e9⟩ := idx_facts t
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 64 ≤ (i 1).val ∧ (i 1).val < win3_4.index t (1 : Fin 2) * 64 + 64; omega

/-- The array region 3 leaves: the combine step of the four arrays it was entered with. -/
theorem final (c : Dev nD) :
    (dat3 (F := Ideal) V c).arrAt 4 cfg3.N = G (V c main_v44) (V c main_v57) (V c main_v58) (V c main_v59) :=
  (dat3 V c).arrAt_eq_of_cover 4 _ (fun t _ => flushed_eq V c t) cover

end Cert.KernelIdeal.Comb2

end
-- ==== Proof.Bridge.lean ====
/- The reference, stage by stage, against what the kernel's four regions leave.
   The reference's two dense products are the regions' whole-array products (both are the plain sum over the contracted
   position at the ideal instance); its two combine chains — the squared inverse square-root degree broadcast from a
   vector to a column to the full array, times h, added to the neighbour sum, plus the bias broadcast from a vector to
   a row to the full array, and for the first layer the maximum with zero — are the regions' combine step, read at an
   index: the kernel's program reshapes the degree vector to a column and the bias to a row where the reference
   broadcasts them, and both read entry i of the vector. The reference computes the degrees and the edge weights once
   per layer from the same edge list; the second computation is the first. -/
import proofs.«166858_j5566277616086_1_alg».proof.Proof.Gen.ReferenceIdeal.Read
import proofs.«166858_j5566277616086_1_alg».proof.Proof.Mm1
import proofs.«166858_j5566277616086_1_alg».proof.Proof.Comb1
import proofs.«166858_j5566277616086_1_alg».proof.Proof.Mm2
import proofs.«166858_j5566277616086_1_alg».proof.Proof.Comb2
import Idealize.ShloMosaic.Lib.Pipeline.Value
import Idealize.ShloMosaic.Lib.ValueIdx

set_option maxRecDepth 16384

noncomputable section

namespace Cert.Bridge

open Cert.ReferenceIdeal Cert.ReferenceIdeal.Read
open Idealize.ShloMosaic Idealize.ShloMosaic.TcCoe
open scoped BigOperators

/-! ## The second layer's degrees and edge weights are the first layer's -/

/-- The inverse square-root degrees the reference recomputes for its second layer are those of its first. -/
theorem dinv2_eq (x1 : (⟨S2x800000, .i32⟩ : BufTy).Contents (Elt Ideal)) : val_main_v58 (F := Ideal) x1 = val_main_v12 (F := Ideal) x1 := rfl

/-- The edge weights the reference recomputes for its second layer are those of its first. -/
theorem norm2_eq (x1 : (⟨S2x800000, .i32⟩ : BufTy).Contents (Elt Ideal)) : val_main_v73 (F := Ideal) x1 = val_main_v27 (F := Ideal) x1 := rfl

/-! ## The dense products -/

/-- x · W₁ as region 0 leaves it is the reference's first `dot_general`. -/
theorem mm1_ref (x0 : (⟨S50000x128, .f32⟩ : BufTy).Contents (Elt Ideal)) (x2 : (⟨S128x256, .f32⟩ : BufTy).Contents (Elt Ideal)) :
    Cert.KernelIdeal.Mm1.G x0 x2 = val_main_v4 (F := Ideal) x0 x2 := by
  funext i
  rw [val_main_v4_apply]
  have el : ∀ k, Cert.KernelIdeal.Mm1.la i k = lidx_main_v4 i k := fun k => funext fun a => by
    match a with
    | ⟨0, _⟩ => rfl
    | ⟨1, _⟩ => rfl
  have er : ∀ k, Cert.KernelIdeal.Mm1.ra i k = ridx_main_v4 i k := fun k => funext fun a => by
    match a with
    | ⟨0, _⟩ => rfl
    | ⟨1, _⟩ => rfl
  simp only [Cert.KernelIdeal.Mm1.G, el, er]

/-- x₂ · W₂ as region 2 leaves it, at the first layer's output, is the reference's second `dot_general`. -/
theorem mm2_ref (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (x4 : (⟨S256x64, .f32⟩ : BufTy).Contents (Elt Ideal)) :
    Cert.KernelIdeal.Mm2.G (val_main_v49 (F := Ideal) x0 x1 x2 x3) x4 = val_main_v50 (F := Ideal) x0 x1 x2 x3 x4 := by
  funext i
  rw [val_main_v50_apply]
  have el : ∀ k, Cert.KernelIdeal.Mm2.la i k = lidx_main_v50 i k := fun k => funext fun a => by
    match a with
    | ⟨0, _⟩ => rfl
    | ⟨1, _⟩ => rfl
  have er : ∀ k, Cert.KernelIdeal.Mm2.ra i k = ridx_main_v50 i k := fun k => funext fun a => by
    match a with
    | ⟨0, _⟩ => rfl
    | ⟨1, _⟩ => rfl
  simp only [Cert.KernelIdeal.Mm2.G, el, er]

/-! ## The combine steps -/

/-- The first layer's combine step on the reference's h and neighbour sum, the degree vector reshaped to a column
    and the bias to a row, is the reference's relu of its first convolution. -/
theorem comb1_ref (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) :
    Cert.KernelIdeal.Comb1.G (val_main_v4 (F := Ideal) x0 x2) (val_main_v40 (F := Ideal) x0 x1 x2)
      (shapeCast Cert.KernelIdeal.S50000x1 (val_main_v12 (F := Ideal) x1) Cert.KernelIdeal.Gen.shapeCasts_S50000_S50000x1)
      (shapeCast Cert.KernelIdeal.S1x256 x3 Cert.KernelIdeal.Gen.shapeCasts_S256_S1x256)
    = val_main_v49 (F := Ideal) x0 x1 x2 x3 := by
  funext i
  rw [val_main_v49_apply, val_main_v48_apply, val_main_v45_apply, val_main_v47_apply, val_main_v46_apply, val_main_v44_apply,
    val_main_v43_apply, val_main_v42_apply, val_main_v41_apply, val_main_call0_v0_apply, val_main_call0_cst_apply]
  have hd : shapeCast Cert.KernelIdeal.S50000x1 (val_main_v12 (F := Ideal) x1) Cert.KernelIdeal.Gen.shapeCasts_S50000_S50000x1 (Cert.KernelIdeal.Comb1.ci i)
      = val_main_v12 (F := Ideal) x1 (idx_main_v42 (idx_main_v43 i)) :=
    shapeCast_apply _ _ _ _ (by
      rw [Shape.rowMajor_val_one, Shape.rowMajor_val_two]
      show (i 0).val = (i 0).val * 1 + 0
      omega)
  have hb : shapeCast Cert.KernelIdeal.S1x256 x3 Cert.KernelIdeal.Gen.shapeCasts_S256_S1x256 (Cert.KernelIdeal.Comb1.ri i) = x3 (idx_main_v46 (idx_main_v47 i)) :=
    shapeCast_apply _ _ _ _ (by
      rw [Shape.rowMajor_val_one, Shape.rowMajor_val_two]
      show (i 1).val = 0 * 256 + (i 1).val
      omega)
  simp only [Cert.KernelIdeal.Comb1.G]
  rw [hd, hb]
  rfl

/-- The second layer's combine step on the reference's h₂ and neighbour sum is the reference's result. -/
theorem comb2_ref (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S256, .f32⟩ : BufTy).Contents (Elt Ideal)) (x4 : (⟨S256x64, .f32⟩ : BufTy).Contents (Elt Ideal)) (x5 : (⟨S64, .f32⟩ : BufTy).Contents (Elt Ideal)) :
    Cert.KernelIdeal.Comb2.G (val_main_v50 (F := Ideal) x0 x1 x2 x3 x4) (val_main_v86 (F := Ideal) x0 x1 x2 x3 x4)
      (shapeCast Cert.KernelIdeal.S50000x1 (val_main_v58 (F := Ideal) x1) Cert.KernelIdeal.Gen.shapeCasts_S50000_S50000x1)
      (shapeCast Cert.KernelIdeal.S1x64 x5 Cert.KernelIdeal.Gen.shapeCasts_S64_S1x64)
    = val_main_v94 (F := Ideal) x0 x1 x2 x3 x4 x5 := by
  funext i
  rw [val_main_v94_apply, val_main_v91_apply, val_main_v93_apply, val_main_v92_apply, val_main_v90_apply, val_main_v89_apply,
    val_main_v88_apply, val_main_v87_apply]
  have hd : shapeCast Cert.KernelIdeal.S50000x1 (val_main_v58 (F := Ideal) x1) Cert.KernelIdeal.Gen.shapeCasts_S50000_S50000x1 (Cert.KernelIdeal.Comb2.ci i)
      = val_main_v58 (F := Ideal) x1 (idx_main_v88 (idx_main_v89 i)) :=
    shapeCast_apply _ _ _ _ (by
      rw [Shape.rowMajor_val_one, Shape.rowMajor_val_two]
      show (i 0).val = (i 0).val * 1 + 0
      omega)
  have hb : shapeCast Cert.KernelIdeal.S1x64 x5 Cert.KernelIdeal.Gen.shapeCasts_S64_S1x64 (Cert.KernelIdeal.Comb2.ri i) = x5 (idx_main_v92 (idx_main_v93 i)) :=
    shapeCast_apply _ _ _ _ (by
      rw [Shape.rowMajor_val_one, Shape.rowMajor_val_two]
      show (i 1).val = 0 * 64 + (i 1).val
      omega)
  simp only [Cert.KernelIdeal.Comb2.G]
  rw [hd, hb]
  rfl

end Cert.Bridge

end
-- ==== Proof.ChainA.lean ====
/- The kernel's program from launch to the end of its first layer, boundary by boundary, at the ideal instance.
   The program's buffer contents at each boundary between a stretch of host operations and a region are a fold from
   the launch memory. Here each buffer a later item reads is identified with a stage of the reference, as a function of
   the arguments: the source and target node of every edge, the inverse square-root degrees (one plus the number of
   edges into a node, to the power −1/2), the edge weights (the product of the two ends' inverse square-root degrees),
   h₁ = x · W₁ (region 0), the neighbour sum (the weighted rows of h₁ scatter-added by target node), and the first
   layer's output relu((agg₁ + d² h₁) + b₁) (region 1). The host operations are the same operations in both programs,
   so a stretch is the reference's stages once its inputs are; a buffer no item writes is carried as it was. -/
import proofs.«166858_j5566277616086_1_alg».proof.Proof.Gen.KernelIdeal.Frame
import proofs.«166858_j5566277616086_1_alg».proof.Proof.Bridge
import Idealize.ShloMosaic.Lib.StableHlo.Run

set_option maxRecDepth 16384

noncomputable section

namespace Cert.KernelIdeal.Chain

open Cert.KernelIdeal Cert.KernelIdeal.Gen
open Cert.ReferenceIdeal.Read
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-! ## After the first stretch of host operations (region 0's entry) -/

theorem W1_v1 (c : Dev nD) : W1 m ρ c (Proc.devRef .tc main_v1) = val_main_v1 (F := Ideal) (m ((c : Thread nD τ).loc main_arg1)) := by
  show StableHlo.after hostOps0 (W0 m ρ c) (Proc.devRef .tc main_v1) = _
  after_results_simp <;> rfl
theorem W1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp <;> rfl
/-- The inverse square-root degrees. -/
theorem W1_v11 (c : Dev nD) : W1 m ρ c (Proc.devRef .tc main_v11) = val_main_v12 (F := Ideal) (m ((c : Thread nD τ).loc main_arg1)) := by
  show StableHlo.after hostOps0 (W0 m ρ c) (Proc.devRef .tc main_v11) = _
  after_results_simp <;> rfl
/-- The edge weights. -/
theorem W1_v26 (c : Dev nD) : W1 m ρ c (Proc.devRef .tc main_v26) = val_main_v27 (F := Ideal) (m ((c : Thread nD τ).loc main_arg1)) := by
  show StableHlo.after hostOps0 (W0 m ρ c) (Proc.devRef .tc main_v26) = _
  after_results_simp <;> rfl
theorem W1_arg0 (c : Dev nD) : W1 m ρ c (Proc.devRef .tc main_arg0) = (m ((c : Thread nD τ).loc main_arg0)) := by
  show StableHlo.after hostOps0 (W0 m ρ c) (Proc.devRef .tc main_arg0) = _
  after_results_simp <;> rfl
theorem W1_arg2 (c : Dev nD) : W1 m ρ c (Proc.devRef .tc main_arg2) = (m ((c : Thread nD τ).loc main_arg2)) := by
  show StableHlo.after hostOps0 (W0 m ρ c) (Proc.devRef .tc main_arg2) = _
  after_results_simp <;> rfl
theorem W1_arg3 (c : Dev nD) : W1 m ρ c (Proc.devRef .tc main_arg3) = (m ((c : Thread nD τ).loc main_arg3)) := by
  show StableHlo.after hostOps0 (W0 m ρ c) (Proc.devRef .tc main_arg3) = _
  after_results_simp <;> rfl
theorem W1_arg4 (c : Dev nD) : W1 m ρ c (Proc.devRef .tc main_arg4) = (m ((c : Thread nD τ).loc main_arg4)) := by
  show StableHlo.after hostOps0 (W0 m ρ c) (Proc.devRef .tc main_arg4) = _
  after_results_simp <;> rfl
theorem W1_arg5 (c : Dev nD) : W1 m ρ c (Proc.devRef .tc main_arg5) = (m ((c : Thread nD τ).loc main_arg5)) := by
  show StableHlo.after hostOps0 (W0 m ρ c) (Proc.devRef .tc main_arg5) = _
  after_results_simp <;> rfl

/-! ## After region 0: h₁ = x · W₁ -/

theorem W2_v1 (c : Dev nD) : W2 m ρ c (Proc.devRef .tc main_v1) = val_main_v1 (F := Ideal) (m ((c : Thread nD τ).loc main_arg1)) :=
  (W2_of_ne m ρ c main_v1 (by decide)).trans (W1_v1 m ρ c)
theorem W2_v3 (c : Dev nD) : W2 m ρ c (Proc.devRef .tc main_v3) = val_main_v3 (F := Ideal) (m ((c : Thread nD τ).loc main_arg1)) :=
  (W2_of_ne m ρ c main_v3 (by decide)).trans (W1_v3 m ρ c)
theorem W2_v11 (c : Dev nD) : W2 m ρ c (Proc.devRef .tc main_v11) = val_main_v12 (F := Ideal) (m ((c : Thread nD τ).loc main_arg1)) :=
  (W2_of_ne m ρ c main_v11 (by decide)).trans (W1_v11 m ρ c)
theorem W2_v26 (c : Dev nD) : W2 m ρ c (Proc.devRef .tc main_v26) = val_main_v27 (F := Ideal) (m ((c : Thread nD τ).loc main_arg1)) :=
  (W2_of_ne m ρ c main_v26 (by decide)).trans (W1_v26 m ρ c)
theorem W2_arg3 (c : Dev nD) : W2 m ρ c (Proc.devRef .tc main_arg3) = (m ((c : Thread nD τ).loc main_arg3)) :=
  (W2_of_ne m ρ c main_arg3 (by decide)).trans (W1_arg3 m ρ c)
theorem W2_arg4 (c : Dev nD) : W2 m ρ c (Proc.devRef .tc main_arg4) = (m ((c : Thread nD τ).loc main_arg4)) :=
  (W2_of_ne m ρ c main_arg4 (by decide)).trans (W1_arg4 m ρ c)
theorem W2_arg5 (c : Dev nD) : W2 m ρ c (Proc.devRef .tc main_arg5) = (m ((c : Thread nD τ).loc main_arg5)) :=
  (W2_of_ne m ρ c main_arg5 (by decide)).trans (W1_arg5 m ρ c)
/-- Region 0 leaves the reference's first dense product in its result buffer. -/
theorem W2_v27 (c : Dev nD) : W2 m ρ c (Proc.devRef .tc main_v27) = val_main_v4 (F := Ideal) (m ((c : Thread nD τ).loc main_arg0)) (m ((c : Thread nD τ).loc main_arg2)) :=
  calc W2 m ρ c (Proc.devRef .tc main_v27)
    _ = (dat0 (V1 m ρ) c).arrAt 2 cfg0.N := W2_arr m ρ c 2
    _ = Mm1.G (V1 m ρ c main_arg0) (V1 m ρ c main_arg2) := Mm1.final (V1 m ρ) c
    _ = Mm1.G (m ((c : Thread nD τ).loc main_arg0)) (m ((c : Thread nD τ).loc main_arg2)) := congrArg₂ Mm1.G (W1_arg0 m ρ c) (W1_arg2 m ρ c)
    _ = val_main_v4 (F := Ideal) (m ((c : Thread nD τ).loc main_arg0)) (m ((c : Thread nD τ).loc main_arg2)) := Cert.Bridge.mm1_ref _ _

/-! ## After the second stretch of host operations (region 1's entry): the neighbour sum, the degree column, the bias row -/

theorem W3_v1 (c : Dev nD) : W3 m ρ c (Proc.devRef .tc main_v1) = val_main_v1 (F := Ideal) (m ((c : Thread nD τ).loc main_arg1)) := by
  show StableHlo.after hostOps1 (W2 m ρ c) (Proc.devRef .tc main_v1) = _
  after_results_simp
  exact W2_v1 m ρ c
theorem W3_v3 (c : Dev nD) : W3 m ρ c (Proc.devRef .tc main_v3) = val_main_v3 (F := Ideal) (m ((c : Thread nD τ).loc main_arg1)) := by
  show StableHlo.after hostOps1 (W2 m ρ c) (Proc.devRef .tc main_v3) = _
  after_results_simp
  exact W2_v3 m ρ c
theorem W3_v11 (c : Dev nD) : W3 m ρ c (Proc.devRef .tc main_v11) = val_main_v12 (F := Ideal) (m ((c : Thread nD τ).loc main_arg1)) := by
  show StableHlo.after hostOps1 (W2 m ρ c) (Proc.devRef .tc main_v11) = _
  after_results_simp
  exact W2_v11 m ρ c
theorem W3_v26 (c : Dev nD) : W3 m ρ c (Proc.devRef .tc main_v26) = val_main_v27 (F := Ideal) (m ((c : Thread nD τ).loc main_arg1)) := by
  show StableHlo.after hostOps1 (W2 m ρ c) (Proc.devRef .tc main_v26) = _
  after_results_simp
  exact W2_v26 m ρ c
theorem W3_arg4 (c : Dev nD) : W3 m ρ c (Proc.devRef .tc main_arg4) = (m ((c : Thread nD τ).loc main_arg4)) := by
  show StableHlo.after hostOps1 (W2 m ρ c) (Proc.devRef .tc main_arg4) = _
  after_results_simp
  exact W2_arg4 m ρ c
theorem W3_arg5 (c : Dev nD) : W3 m ρ c (Proc.devRef .tc main_arg5) = (m ((c : Thread nD τ).loc main_arg5)) := by
  show StableHlo.after hostOps1 (W2 m ρ c) (Proc.devRef .tc main_arg5) = _
  after_results_simp
  exact W2_arg5 m ρ c
theorem W3_v27 (c : Dev nD) : W3 m ρ c (Proc.devRef .tc main_v27) = val_main_v4 (F := Ideal) (m ((c : Thread nD τ).loc main_arg0)) (m ((c : Thread nD τ).loc main_arg2)) := by
  show StableHlo.after hostOps1 (W2 m ρ c) (Proc.devRef .tc main_v27) = _
  after_results_simp
  exact W2_v27 m ρ c
/-- The first layer's neighbour sum: the same gather, weighting and scatter-add as the reference's, of equal inputs. -/
theorem W3_v40 (c : Dev nD) : W3 m ρ c (Proc.devRef .tc main_v40) = val_main_v40 (F := Ideal) (m ((c : Thread nD τ).loc main_arg0)) (m ((c : Thread nD τ).loc main_arg1)) (m ((c : Thread nD τ).loc main_arg2)) := by
  show StableHlo.after hostOps1 (W2 m ρ c) (Proc.devRef .tc main_v40) = _
  after_results_simp
  rw [W2_v3 m ρ c, W2_v26 m ρ c, W2_v27 m ρ c, W2_v1 m ρ c]
  rfl
/-- The inverse square-root degrees as a column. -/
theorem W3_v41 (c : Dev nD) : W3 m ρ c (Proc.devRef .tc main_v41)
    = shapeCast S50000x1 (val_main_v12 (F := Ideal) (m ((c : Thread nD τ).loc main_arg1))) shapeCasts_S50000_S50000x1 := by
  show StableHlo.after hostOps1 (W2 m ρ c) (Proc.devRef .tc main_v41) = _
  after_results_simp
  exact congrArg (fun v : Vec Ideal S50000 .f32 => shapeCast S50000x1 v shapeCasts_S50000_S50000x1) (W2_v11 m ρ c)
/-- The first bias as a row. -/
theorem W3_v42 (c : Dev nD) : W3 m ρ c (Proc.devRef .tc main_v42) = shapeCast S1x256 (m ((c : Thread nD τ).loc main_arg3)) shapeCasts_S256_S1x256 := by
  show StableHlo.after hostOps1 (W2 m ρ c) (Proc.devRef .tc main_v42) = _
  after_results_simp
  exact congrArg (fun v : Vec Ideal S256 .f32 => shapeCast S1x256 v shapeCasts_S256_S1x256) (W2_arg3 m ρ c)

/-! ## After region 1: the first layer's output -/

theorem W4_v1 (c : Dev nD) : W4 m ρ c (Proc.devRef .tc main_v1) = val_main_v1 (F := Ideal) (m ((c : Thread nD τ).loc main_arg1)) :=
  (W4_of_ne m ρ c main_v1 (by decide)).trans (W3_v1 m ρ c)
theorem W4_v3 (c : Dev nD) : W4 m ρ c (Proc.devRef .tc main_v3) = val_main_v3 (F := Ideal) (m ((c : Thread nD τ).loc main_arg1)) :=
  (W4_of_ne m ρ c main_v3 (by decide)).trans (W3_v3 m ρ c)
theorem W4_v11 (c : Dev nD) : W4 m ρ c (Proc.devRef .tc main_v11) = val_main_v12 (F := Ideal) (m ((c : Thread nD τ).loc main_arg1)) :=
  (W4_of_ne m ρ c main_v11 (by decide)).trans (W3_v11 m ρ c)
theorem W4_v26 (c : Dev nD) : W4 m ρ c (Proc.devRef .tc main_v26) = val_main_v27 (F := Ideal) (m ((c : Thread nD τ).loc main_arg1)) :=
  (W4_of_ne m ρ c main_v26 (by decide)).trans (W3_v26 m ρ c)
theorem W4_arg4 (c : Dev nD) : W4 m ρ c (Proc.devRef .tc main_arg4) = (m ((c : Thread nD τ).loc main_arg4)) :=
  (W4_of_ne m ρ c main_arg4 (by decide)).trans (W3_arg4 m ρ c)
theorem W4_arg5 (c : Dev nD) : W4 m ρ c (Proc.devRef .tc main_arg5) = (m ((c : Thread nD τ).loc main_arg5)) :=
  (W4_of_ne m ρ c main_arg5 (by decide)).trans (W3_arg5 m ρ c)

/-- The combine step of equal arrays is equal. -/
theorem comb1_congr {h h' agg agg' : Vec Ideal S50000x256 .f32} {d d' : Vec Ideal S50000x1 .f32} {b b' : Vec Ideal S1x256 .f32}
    (e1 : h = h') (e2 : agg = agg') (e3 : d = d') (e4 : b = b') : Comb1.G h agg d b = Comb1.G h' agg' d' b' := by
  subst e1 e2 e3 e4; rfl

/-- Region 1 leaves the reference's first-layer output relu(conv₁) in its result buffer. -/
theorem W4_v43 (c : Dev nD) : W4 m ρ c (Proc.devRef .tc main_v43) = val_main_v49 (F := Ideal) (m ((c : Thread nD τ).loc main_arg0)) (m ((c : Thread nD τ).loc main_arg1)) (m ((c : Thread nD τ).loc main_arg2)) (m ((c : Thread nD τ).loc main_arg3)) :=
  calc W4 m ρ c (Proc.devRef .tc main_v43)
    _ = (dat1 (V3 m ρ) c).arrAt 4 cfg1.N := W4_arr m ρ c 4
    _ = Comb1.G (V3 m ρ c main_v27) (V3 m ρ c main_v40) (V3 m ρ c main_v41) (V3 m ρ c main_v42) := Comb1.final (V3 m ρ) c
    _ = Comb1.G (val_main_v4 (F := Ideal) (m ((c : Thread nD τ).loc main_arg0)) (m ((c : Thread nD τ).loc main_arg2))) (val_main_v40 (F := Ideal) (m ((c : Thread nD τ).loc main_arg0)) (m ((c : Thread nD τ).loc main_arg1)) (m ((c : Thread nD τ).loc main_arg2)))
          (shapeCast S50000x1 (val_main_v12 (F := Ideal) (m ((c : Thread nD τ).loc main_arg1))) shapeCasts_S50000_S50000x1)
          (shapeCast S1x256 (m ((c : Thread nD τ).loc main_arg3)) shapeCasts_S256_S1x256) :=
        comb1_congr (W3_v27 m ρ c) (W3_v40 m ρ c) (W3_v41 m ρ c) (W3_v42 m ρ c)
    _ = val_main_v49 (F := Ideal) (m ((c : Thread nD τ).loc main_arg0)) (m ((c : Thread nD τ).loc main_arg1)) (m ((c : Thread nD τ).loc main_arg2)) (m ((c : Thread nD τ).loc main_arg3)) := Cert.Bridge.comb1_ref _ _ _ _

end Cert.KernelIdeal.Chain

end
-- ==== Proof.ChainB.lean ====
/- The kernel's program from the end of its first layer to its result, boundary by boundary, at the ideal instance.
   Region 2 multiplies the first layer's output by W₂; the third stretch of host operations gathers, weights and
   scatter-adds the rows of h₂ with the SAME degrees and edge weights the first stretch computed (the reference
   computes them again for its second layer: the same function of the edge list), reshapes the degree vector to a
   column and the second bias to a row; region 3 combines, without a relu. The result buffer ends at the reference's
   result, as a function of the arguments. -/
import proofs.«166858_j5566277616086_1_alg».proof.Proof.Gen.KernelIdeal.Frame
import proofs.«166858_j5566277616086_1_alg».proof.Proof.Bridge
import proofs.«166858_j5566277616086_1_alg».proof.Proof.ChainA
import Idealize.ShloMosaic.Lib.StableHlo.Run

set_option maxRecDepth 16384

noncomputable section

namespace Cert.KernelIdeal.Chain

open Cert.KernelIdeal Cert.KernelIdeal.Gen
open Cert.ReferenceIdeal.Read
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-! ## After region 2: h₂ = relu(conv₁) · W₂ -/

theorem W5_v1 (c : Dev nD) : W5 m ρ c (Proc.devRef .tc main_v1) = val_main_v1 (F := Ideal) (m ((c : Thread nD τ).loc main_arg1)) :=
  (W5_of_ne m ρ c main_v1 (by decide)).trans (W4_v1 m ρ c)
theorem W5_v3 (c : Dev nD) : W5 m ρ c (Proc.devRef .tc main_v3) = val_main_v3 (F := Ideal) (m ((c : Thread nD τ).loc main_arg1)) :=
  (W5_of_ne m ρ c main_v3 (by decide)).trans (W4_v3 m ρ c)
/-- The degrees computed once serve the second layer: they are the ones the reference computes again. -/
theorem W5_v11 (c : Dev nD) : W5 m ρ c (Proc.devRef .tc main_v11) = val_main_v58 (F := Ideal) (m ((c : Thread nD τ).loc main_arg1)) :=
  ((W5_of_ne m ρ c main_v11 (by decide)).trans (W4_v11 m ρ c)).trans (Cert.Bridge.dinv2_eq _).symm
/-- The edge weights computed once serve the second layer: they are the ones the reference computes again. -/
theorem W5_v26 (c : Dev nD) : W5 m ρ c (Proc.devRef .tc main_v26) = val_main_v73 (F := Ideal) (m ((c : Thread nD τ).loc main_arg1)) :=
  ((W5_of_ne m ρ c main_v26 (by decide)).trans (W4_v26 m ρ c)).trans (Cert.Bridge.norm2_eq _).symm
theorem W5_arg5 (c : Dev nD) : W5 m ρ c (Proc.devRef .tc main_arg5) = (m ((c : Thread nD τ).loc main_arg5)) :=
  (W5_of_ne m ρ c main_arg5 (by decide)).trans (W4_arg5 m ρ c)
/-- Region 2 leaves the reference's second dense product in its result buffer. -/
theorem W5_v44 (c : Dev nD) : W5 m ρ c (Proc.devRef .tc main_v44) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  calc W5 m ρ c (Proc.devRef .tc main_v44)
    _ = (dat2 (V4 m ρ) c).arrAt 2 cfg2.N := W5_arr m ρ c 2
    _ = Mm2.G (V4 m ρ c main_v43) (V4 m ρ c main_arg4) := Mm2.final (V4 m ρ) c
    _ = Mm2.G (val_main_v49 (F := Ideal) (m ((c : Thread nD τ).loc main_arg0)) (m ((c : Thread nD τ).loc main_arg1)) (m ((c : Thread nD τ).loc main_arg2)) (m ((c : Thread nD τ).loc main_arg3))) (m ((c : Thread nD τ).loc main_arg4)) := congrArg₂ Mm2.G (W4_v43 m ρ c) (W4_arg4 m ρ c)
    _ = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := Cert.Bridge.mm2_ref _ _ _ _ _

/-! ## After the third stretch of host operations (region 3's entry) -/

theorem W6_v44 (c : Dev nD) : W6 m ρ c (Proc.devRef .tc main_v44) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v44) = _
  after_results_simp
  exact W5_v44 m ρ c
/-- The second layer's neighbour sum: the same gather, weighting and scatter-add as the reference's, of equal inputs. -/
theorem W6_v57 (c : Dev nD) : W6 m ρ c (Proc.devRef .tc main_v57) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v57) = _
  after_results_simp
  rw [W5_v3 m ρ c, W5_v26 m ρ c, W5_v44 m ρ c, W5_v1 m ρ c]
  rfl
/-- The inverse square-root degrees as a column. -/
theorem W6_v58 (c : Dev nD) : W6 m ρ c (Proc.devRef .tc main_v58)
    = shapeCast S50000x1 (val_main_v58 (F := Ideal) (m ((c : Thread nD τ).loc main_arg1))) shapeCasts_S50000_S50000x1 := by
  show StableHlo.after hostOps3 (W5 m ρ c) (Proc.devRef .tc main_v58) = _
  after_results_simp
  exact congrArg (fun v : Vec Ideal S50000 .f32 => shapeCast S50000x1 v shapeCasts_S50000_S50000x1) (W5_v11 m ρ c)
/-- The second bias as a row. -/
theorem W6_v59 (c : Dev nD) : W6 m ρ c (Proc.devRef .tc main_v59) = shapeCast S1x64 (m ((c : Thread nD τ).loc main_arg5)) shapeCasts_S64_S1x64 := by
  show StableHlo.after hostOps3 (W5 m ρ c) (Proc.devRef .tc main_v59) = _
  after_results_simp
  exact congrArg (fun v : Vec Ideal S64 .f32 => shapeCast S1x64 v shapeCasts_S64_S1x64) (W5_arg5 m ρ c)

/-! ## After region 3: the result -/

/-- The combine step of equal arrays is equal. -/
theorem comb2_congr {h h' agg agg' : Vec Ideal S50000x64 .f32} {d d' : Vec Ideal S50000x1 .f32} {b b' : Vec Ideal S1x64 .f32}
    (e1 : h = h') (e2 : agg = agg') (e3 : d = d') (e4 : b = b') : Comb2.G h agg d b = Comb2.G h' agg' d' b' := by
  subst e1 e2 e3 e4; rfl

/-- The kernel's result buffer ends at the reference's result, the same function of the six arguments. -/
theorem W7_v60 (c : Dev nD) : W7 m ρ c (Proc.devRef .tc main_v60)
    = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  calc W7 m ρ c (Proc.devRef .tc main_v60)
    _ = (dat3 (V6 m ρ) c).arrAt 4 cfg3.N := W7_arr m ρ c 4
    _ = Comb2.G (V6 m ρ c main_v44) (V6 m ρ c main_v57) (V6 m ρ c main_v58) (V6 m ρ c main_v59) := Comb2.final (V6 m ρ) c
    _ = Comb2.G (val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
          (shapeCast S50000x1 (val_main_v58 (F := Ideal) (m ((c : Thread nD τ).loc main_arg1))) shapeCasts_S50000_S50000x1)
          (shapeCast S1x64 (m ((c : Thread nD τ).loc main_arg5)) shapeCasts_S64_S1x64) :=
        comb2_congr (W6_v44 m ρ c) (W6_v57 m ρ c) (W6_v58 m ρ c) (W6_v59 m ρ c)
    _ = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := Cert.Bridge.comb2_ref _ _ _ _ _ _

end Cert.KernelIdeal.Chain

end
-- ==== Proof.lean ====
/- A two-layer graph convolution: the kernel's program against the plain reference, equal over the extended reals.

   Both programs compute, for node features x, an edge list (source, target), weights W₁, W₂ and biases b₁, b₂,
     d_i   = (1 + number of edges into i)^(−1/2),            w_e = d_source(e) · d_target(e),
     conv(h)_i = Σ_{e into i} w_e · h_source(e)  +  d_i² · h_i  +  b,
     result = conv₂(relu(conv₁(x · W₁)) · W₂).
   The kernel's program computes d and w once, and runs the two dense products and the two combine steps
   (agg + d² h + b, with the relu in the first layer) as four regions of 25 grid points, 2000 rows each; the gathers and
   scatter-adds between them are host operations, the same operations as the reference's. The reference computes d and
   w once per layer and everything on the host.

   Why the two are equal at the ideal instance, with no appeal to finiteness of the inputs: narrowing an operand before a
   product is the identity there, so a region's product into a zero accumulator and the host's `dot_general` are the same
   sum over the contracted position (Mm1, Mm2, Bridge); the combine regions are pointwise and apply the same operations
   in the same order and grouping as the reference's chain of host operations, d² being d·d in both (Comb1, Comb2,
   Bridge); every other operation is literally shared, applied to equal values (ChainA, ChainB); and the second
   computation of d and w is the first. No law of the extended reals beyond reading each operation at an index is used.

   The three frames: the kernel's two are the generated frame certificates; the reference's is its generated run with the
   result dropped. The idealization rewrote nothing, so there is nothing to preserve. The kernel's run with its result
   buffer named is the generated frame's launch called again keeping that buffer (KernelRun). -/
import proofs.«166858_j5566277616086_1_alg».proof.Defs
import proofs.«166858_j5566277616086_1_alg».proof.Proof.Gen.Kernel
import proofs.«166858_j5566277616086_1_alg».proof.Proof.Gen.Kernel.Skeleton
import proofs.«166858_j5566277616086_1_alg».proof.Proof.Gen.Kernel.Launch
import proofs.«166858_j5566277616086_1_alg».proof.Proof.Gen.Kernel.Points
import proofs.«166858_j5566277616086_1_alg».proof.Proof.Gen.Kernel.Frame
import proofs.«166858_j5566277616086_1_alg».proof.Proof.Gen.KernelIdeal
import proofs.«166858_j5566277616086_1_alg».proof.Proof.Gen.KernelIdeal.Skeleton
import proofs.«166858_j5566277616086_1_alg».proof.Proof.Gen.KernelIdeal.Launch
import proofs.«166858_j5566277616086_1_alg».proof.Proof.Gen.KernelIdeal.Points
import proofs.«166858_j5566277616086_1_alg».proof.Proof.Gen.KernelIdeal.Frame
import proofs.«166858_j5566277616086_1_alg».proof.Proof.Gen.ReferenceIdeal
import proofs.«166858_j5566277616086_1_alg».proof.Proof.Gen.ReferenceIdeal.Run
import proofs.«166858_j5566277616086_1_alg».proof.Proof.Gen.ReferenceIdeal.Read
import proofs.«166858_j5566277616086_1_alg».proof.Proof.Gen.Pre_finite_inputs
import proofs.«166858_j5566277616086_1_alg».proof.Proof.KernelRun
import proofs.«166858_j5566277616086_1_alg».proof.Proof.ChainB
import Idealize.ShloMosaic.Adequacy
import Idealize.ShloMosaic.Init

noncomputable section

namespace Cert.Proof

open Idealize.ShloMosaic Idealize.ShloMosaic.TcCoe Idealize.SL.Sem

/-- The word-level program runs, faults nowhere, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the same result array: the reference's
    last stage, as a function of the arguments. The kernel's side is its run with the result named, read through the
    four regions and the host stretches between them; the reference's side is its run, its term folded into stages. -/
theorem algebraic : Cert.algebraic_KernelIdeal_ReferenceIdeal := by
  intro m ρ m' ρ' _ hagree
  refine ⟨fun c => Cert.ReferenceIdeal.Read.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.W7_v60 m ρ c), (h c).2⟩)
      (Cert.KernelIdeal.Named.run_named (F := Ideal) m ρ)
  · refine (θ_run Cert.ReferenceIdeal.defs _ _).mono (fun r h c => ⟨?_, (h c).2⟩) (Cert.ReferenceIdeal.Value.run (F := Ideal) m' ρ')
    rw [(h c).1, Cert.ReferenceIdeal.Read.val_main_v94_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
